-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x14x14 : Shape := ⟨4, ![16, 64, 14, 14]⟩
abbrev S64x64x3x3 : Shape := ⟨4, ![64, 64, 3, 3]⟩
abbrev S_ : Shape := ⟨0, ![]⟩

class Facts : Prop where
  bcast_S_S16x64x14x14 : S_.BroadcastsInDim S16x64x14x14 (![] : Fin 0 → Fin S16x64x14x14.rank)
  reducesTo_S16x64x14x14_S_d0_1_2_3 : S16x64x14x14.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S16x64x14x14 .f32) (main_arg1 : FVec F S64x64x3x3 .f32) : IVec S_ 1 :=
  let main_v0 : FVec F S16x64x14x14 .f32 := Host.absf main_arg0
  let main_cst : FVec F S_ .f32 := constant S_ .f32 0x7F800000#32
  let main_v1 : FVec F S16x64x14x14 .f32 := broadcastInDim S16x64x14x14 ![] bcast_S_S16x64x14x14 main_cst
  let main_v2 : IVec S16x64x14x14 1 := cmpf .olt main_v0 main_v1
  let main_c : IVec S_ 1 := constantI S_ 1 1#1
  let main_v3 : IVec S_ 1 := (fun x v => Host.reduce IntOp.andi x v reducesTo_S16x64x14x14_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S16x64x14x14 : Shape := ⟨4, ![16, 64, 14, 14]⟩
abbrev S64x64x3x3 : Shape := ⟨4, ![64, 64, 3, 3]⟩
abbrev S_ : Shape := ⟨0, ![]⟩
abbrev S16x64x16x16 : Shape := ⟨4, ![16, 64, 16, 16]⟩
abbrev S16x64x1x14x14 : Shape := ⟨5, ![16, 64, 1, 14, 14]⟩
abbrev S16x64x9x14x14 : Shape := ⟨5, ![16, 64, 9, 14, 14]⟩
abbrev S16x576x196 : Shape := ⟨3, ![16, 576, 196]⟩
abbrev S64x576 : Shape := ⟨2, ![64, 576]⟩
abbrev S576x64 : Shape := ⟨2, ![576, 64]⟩
abbrev S16x64x196 : Shape := ⟨3, ![16, 64, 196]⟩
abbrev S1x64x196 : Shape := ⟨3, ![1, 64, 196]⟩
abbrev S64x64 : Shape := ⟨2, ![64, 64]⟩
abbrev S64x196 : Shape := ⟨2, ![64, 196]⟩
abbrev S64x64x1 : Shape := ⟨3, ![64, 64, 1]⟩
abbrev S64x1x196 : Shape := ⟨3, ![64, 1, 196]⟩
abbrev S64x64x196 : Shape := ⟨3, ![64, 64, 196]⟩

abbrev nBuf : Space → Nat
  | .hbm => 29
  | .vmem => 7
  | .smem => 0
  | _ => 0

abbrev bufTy : (tb : Table) → Fin (tcTables nBuf tb) → BufTy
  | .hbm, ⟨0, _⟩ => ⟨S16x64x14x14, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x16x16, .f32⟩
  | .hbm, ⟨5, _⟩ => ⟨S16x64x14x14, .f32⟩
  | .hbm, ⟨6, _⟩ => ⟨S16x64x14x14, .f32⟩
  | .hbm, ⟨7, _⟩ => ⟨S16x64x14x14, .f32⟩
  | .hbm, ⟨8, _⟩ => ⟨S16x64x14x14, .f32⟩
  | .hbm, ⟨9, _⟩ => ⟨S16x64x14x14, .f32⟩
  | .hbm, ⟨10, _⟩ => ⟨S16x64x14x14, .f32⟩
  | .hbm, ⟨11, _⟩ => ⟨S16x64x14x14, .f32⟩
  | .hbm, ⟨12, _⟩ => ⟨S16x64x14x14, .f32⟩
  | .hbm, ⟨13, _⟩ => ⟨S16x64x14x14, .f32⟩
  | .hbm, ⟨14, _⟩ => ⟨S16x64x1x14x14, .f32⟩
  | .hbm, ⟨15, _⟩ => ⟨S16x64x1x14x14, .f32⟩
  | .hbm, ⟨16, _⟩ => ⟨S16x64x1x14x14, .f32⟩
  | .hbm, ⟨17, _⟩ => ⟨S16x64x1x14x14, .f32⟩
  | .hbm, ⟨18, _⟩ => ⟨S16x64x1x14x14, .f32⟩
  | .hbm, ⟨19, _⟩ => ⟨S16x64x1x14x14, .f32⟩
  | .hbm, ⟨20, _⟩ => ⟨S16x64x1x14x14, .f32⟩
  | .hbm, ⟨21, _⟩ => ⟨S16x64x1x14x14, .f32⟩
  | .hbm, ⟨22, _⟩ => ⟨S16x64x1x14x14, .f32⟩
  | .hbm, ⟨23, _⟩ => ⟨S16x64x9x14x14, .f32⟩
  | .hbm, ⟨24, _⟩ => ⟨S16x576x196, .f32⟩
  | .hbm, ⟨25, _⟩ => ⟨S64x576, .f32⟩
  | .hbm, ⟨26, _⟩ => ⟨S576x64, .f32⟩
  | .hbm, ⟨27, _⟩ => ⟨S16x64x196, .f32⟩
  | .hbm, ⟨28, _⟩ => ⟨S16x64x14x14, .f32⟩
  | .local _ .vmem, ⟨0, _⟩ => ⟨S1x64x196, .f32⟩
  | .local _ .vmem, ⟨1, _⟩ => ⟨S1x64x196, .f32⟩
  | .local _ .vmem, ⟨2, _⟩ => ⟨S64x64, .f32⟩
  | .local _ .vmem, ⟨3, _⟩ => ⟨S64x64, .f32⟩
  | .local _ .vmem, ⟨4, _⟩ => ⟨S1x64x196, .f32⟩
  | .local _ .vmem, ⟨5, _⟩ => ⟨S1x64x196, .f32⟩
  | .local _ .vmem, ⟨6, _⟩ => ⟨S64x196, .f32⟩
  | _, _ => ⟨S16x64x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c8_i32 : BitVec 32 := 8#32
  let v19 : BitVec 1 := Scalar.cmpi .eq arg1 c8_i32
  let v20 : BitVec 32 := Scalar.extui v19
  let c0_i32_9 : BitVec 32 := 0#32
  let v21 : BitVec 1 := Scalar.cmpi .ne v20 c0_i32_9
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S16x64x14x14_S16x64x16x16_000_000_110_110 : S16x64x14x14.Pads (![0, 0, 1, 1] : Fin 4 → Nat) ![0, 0, 1, 1] ![0, 0, 0, 0] S16x64x16x16
  h_S_ : 0 < S_.numel
  slices_S16x64x16x16_S16x64x14x14_0_0_0_0 : S16x64x16x16.Slices ![0, 0, 0, 0] S16x64x14x14
  slices_S16x64x16x16_S16x64x14x14_0_0_0_1 : S16x64x16x16.Slices ![0, 0, 0, 1] S16x64x14x14
  slices_S16x64x16x16_S16x64x14x14_0_0_0_2 : S16x64x16x16.Slices ![0, 0, 0, 2] S16x64x14x14
  slices_S16x64x16x16_S16x64x14x14_0_0_1_0 : S16x64x16x16.Slices ![0, 0, 1, 0] S16x64x14x14
  slices_S16x64x16x16_S16x64x14x14_0_0_1_1 : S16x64x16x16.Slices ![0, 0, 1, 1] S16x64x14x14
  slices_S16x64x16x16_S16x64x14x14_0_0_1_2 : S16x64x16x16.Slices ![0, 0, 1, 2] S16x64x14x14
  slices_S16x64x16x16_S16x64x14x14_0_0_2_0 : S16x64x16x16.Slices ![0, 0, 2, 0] S16x64x14x14
  slices_S16x64x16x16_S16x64x14x14_0_0_2_1 : S16x64x16x16.Slices ![0, 0, 2, 1] S16x64x14x14
  slices_S16x64x16x16_S16x64x14x14_0_0_2_2 : S16x64x16x16.Slices ![0, 0, 2, 2] S16x64x14x14
  bcast_S16x64x14x14_S16x64x1x14x14_0_1_3_4 : S16x64x14x14.BroadcastsInDim S16x64x1x14x14 (![0, 1, 3, 4] : Fin 4 → Fin S16x64x1x14x14.rank)
  concatenates_S16x64x1x14x14_S16x64x1x14x14_S16x64x1x14x14_S16x64x1x14x14_S16x64x1x14x14_S16x64x1x14x14_S16x64x1x14x14_S16x64x1x14x14_S16x64x1x14x14_S16x64x9x14x14_d2 : Shape.Concatenates [S16x64x1x14x14, S16x64x1x14x14, S16x64x1x14x14, S16x64x1x14x14, S16x64x1x14x14, S16x64x1x14x14, S16x64x1x14x14, S16x64x1x14x14, S16x64x1x14x14] S16x64x9x14x14 2
  shapeCasts_S16x64x9x14x14_S16x576x196 : S16x64x9x14x14.ShapeCasts S16x576x196
  shapeCasts_S64x64x3x3_S64x576 : S64x64x3x3.ShapeCasts S64x576
  transposes_S64x576_S576x64_1_0 : S64x576.Transposes [1, 0] S576x64
  inb_S64x196_S64x196_0_0 : ∀ a, (![0, 0] : Fin 2 → Nat) a + S64x196.size a ≤ S64x196.size a
  h_S64x196 : 0 < S64x196.numel
  shapeCasts_S64x196_S64x196 : S64x196.ShapeCasts S64x196
  inb_S1x64x196_S1x64x196_0_0_0 : ∀ a, (![0, 0, 0] : Fin 3 → Nat) a + S1x64x196.size a ≤ S1x64x196.size a
  h_S1x64x196 : 0 < S1x64x196.numel
  shapeCasts_S1x64x196_S64x196 : S1x64x196.ShapeCasts S64x196
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S64x64x1 : S64x64.ShapeCasts S64x64x1
  shapeCasts_S64x196_S64x1x196 : S64x196.ShapeCasts S64x1x196
  broadcasts_S64x64x1_S64x64x196 : S64x64x1.Broadcasts S64x64x196
  broadcasts_S64x1x196_S64x64x196 : S64x1x196.Broadcasts S64x64x196
  reduces_S64x64x196_S64x196 : S64x64x196.Reduces [0] S64x196
  shapeCasts_S64x196_S1x64x196 : S64x196.ShapeCasts S1x64x196
  shapeCasts_S16x64x196_S16x64x14x14 : S16x64x196.ShapeCasts S16x64x14x14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x196.size a ≤ S16x576x196.size a
  hwx0_0 : ∀ i : grid0.Coords, EltTy.bits .f32 = 32 ∨ (Rect.block (s := S16x576x196) S1x64x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S576x64.size a
  hwx0_1 : ∀ i : grid0.Coords, EltTy.bits .f32 = 32 ∨ (Rect.block (s := S576x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x196.size a ≤ S16x64x196.size a
  hwx0_2 : ∀ i : grid0.Coords, EltTy.bits .f32 = 32 ∨ (Rect.block (s := S16x64x196) S1x64x196.size (cc0_transform_2 i) (hinb0_2 i)).WholeWords (EltTy.packing .f32)

variable [Facts₀]

abbrev win0_0 : Pipeline.Window sig grid0 :=
  Pipeline.Window.ofSpec (Memref.whole main_v20) S1x64x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64x196.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x64x14x14 : Shape := ⟨4, ![16, 64, 14, 14]⟩
abbrev S64x64x3x3 : Shape := ⟨4, ![64, 64, 3, 3]⟩
abbrev S_ : Shape := ⟨0, ![]⟩
abbrev S16x64x16x16 : Shape := ⟨4, ![16, 64, 16, 16]⟩
abbrev S16x64x1x14x14 : Shape := ⟨5, ![16, 64, 1, 14, 14]⟩
abbrev S16x64x9x14x14 : Shape := ⟨5, ![16, 64, 9, 14, 14]⟩
abbrev S16x576x196 : Shape := ⟨3, ![16, 576, 196]⟩
abbrev S64x576 : Shape := ⟨2, ![64, 576]⟩
abbrev S1x64x576x1 : Shape := ⟨4, ![1, 64, 576, 1]⟩
abbrev S16x1x576x196 : Shape := ⟨4, ![16, 1, 576, 196]⟩
abbrev S16x64x576x196 : Shape := ⟨4, ![16, 64, 576, 196]⟩
abbrev S16x64x196 : Shape := ⟨3, ![16, 64, 196]⟩

abbrev nBuf : Space → Nat
  | .hbm => 36
  | .vmem => 0
  | .smem => 0
  | _ => 0

abbrev bufTy : (tb : Table) → Fin (tcTables nBuf tb) → BufTy
  | .hbm, ⟨0, _⟩ => ⟨S16x64x14x14, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x16x16, .f32⟩
  | .hbm, ⟨5, _⟩ => ⟨S16x64x14x14, .f32⟩
  | .hbm, ⟨6, _⟩ => ⟨S16x64x14x14, .f32⟩
  | .hbm, ⟨7, _⟩ => ⟨S16x64x14x14, .f32⟩
  | .hbm, ⟨8, _⟩ => ⟨S16x64x14x14, .f32⟩
  | .hbm, ⟨9, _⟩ => ⟨S16x64x14x14, .f32⟩
  | .hbm, ⟨10, _⟩ => ⟨S16x64x14x14, .f32⟩
  | .hbm, ⟨11, _⟩ => ⟨S16x64x14x14, .f32⟩
  | .hbm, ⟨12, _⟩ => ⟨S16x64x14x14, .f32⟩
  | .hbm, ⟨13, _⟩ => ⟨S16x64x14x14, .f32⟩
  | .hbm, ⟨14, _⟩ => ⟨S16x64x1x14x14, .f32⟩
  | .hbm, ⟨15, _⟩ => ⟨S16x64x1x14x14, .f32⟩
  | .hbm, ⟨16, _⟩ => ⟨S16x64x1x14x14, .f32⟩
  | .hbm, ⟨17, _⟩ => ⟨S16x64x1x14x14, .f32⟩
  | .hbm, ⟨18, _⟩ => ⟨S16x64x1x14x14, .f32⟩
  | .hbm, ⟨19, _⟩ => ⟨S16x64x1x14x14, .f32⟩
  | .hbm, ⟨20, _⟩ => ⟨S16x64x1x14x14, .f32⟩
  | .hbm, ⟨21, _⟩ => ⟨S16x64x1x14x14, .f32⟩
  | .hbm, ⟨22, _⟩ => ⟨S16x64x1x14x14, .f32⟩
  | .hbm, ⟨23, _⟩ => ⟨S16x64x9x14x14, .f32⟩
  | .hbm, ⟨24, _⟩ => ⟨S16x576x196, .f32⟩
  | .hbm, ⟨25, _⟩ => ⟨S64x576, .f32⟩
  | .hbm, ⟨26, _⟩ => ⟨S1x64x576x1, .f32⟩
  | .hbm, ⟨27, _⟩ => ⟨S16x1x576x196, .f32⟩
  | .hbm, ⟨28, _⟩ => ⟨S16x64x576x196, .f32⟩
  | .hbm, ⟨29, _⟩ => ⟨S16x64x576x196, .f32⟩
  | .hbm, ⟨30, _⟩ => ⟨S16x64x576x196, .f32⟩
  | .hbm, ⟨31, _⟩ => ⟨S16x64x576x196, .f32⟩
  | .hbm, ⟨32, _⟩ => ⟨S_, .f32⟩
  | .hbm, ⟨33, _⟩ => ⟨S16x64x196, .f32⟩
  | .hbm, ⟨34, _⟩ => ⟨S16x64x196, .f32⟩
  | .hbm, ⟨35, _⟩ => ⟨S16x64x14x14, .f32⟩
  | _, _ => ⟨S16x64x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S16x64x14x14_S16x64x16x16_000_000_110_110 : S16x64x14x14.Pads (![0, 0, 1, 1] : Fin 4 → Nat) ![0, 0, 1, 1] ![0, 0, 0, 0] S16x64x16x16
  h_S_ : 0 < S_.numel
  slices_S16x64x16x16_S16x64x14x14_0_0_0_0 : S16x64x16x16.Slices ![0, 0, 0, 0] S16x64x14x14
  slices_S16x64x16x16_S16x64x14x14_0_0_0_1 : S16x64x16x16.Slices ![0, 0, 0, 1] S16x64x14x14
  slices_S16x64x16x16_S16x64x14x14_0_0_0_2 : S16x64x16x16.Slices ![0, 0, 0, 2] S16x64x14x14
  slices_S16x64x16x16_S16x64x14x14_0_0_1_0 : S16x64x16x16.Slices ![0, 0, 1, 0] S16x64x14x14
  slices_S16x64x16x16_S16x64x14x14_0_0_1_1 : S16x64x16x16.Slices ![0, 0, 1, 1] S16x64x14x14
  slices_S16x64x16x16_S16x64x14x14_0_0_1_2 : S16x64x16x16.Slices ![0, 0, 1, 2] S16x64x14x14
  slices_S16x64x16x16_S16x64x14x14_0_0_2_0 : S16x64x16x16.Slices ![0, 0, 2, 0] S16x64x14x14
  slices_S16x64x16x16_S16x64x14x14_0_0_2_1 : S16x64x16x16.Slices ![0, 0, 2, 1] S16x64x14x14
  slices_S16x64x16x16_S16x64x14x14_0_0_2_2 : S16x64x16x16.Slices ![0, 0, 2, 2] S16x64x14x14
  bcast_S16x64x14x14_S16x64x1x14x14_0_1_3_4 : S16x64x14x14.BroadcastsInDim S16x64x1x14x14 (![0, 1, 3, 4] : Fin 4 → Fin S16x64x1x14x14.rank)
  concatenates_S16x64x1x14x14_S16x64x1x14x14_S16x64x1x14x14_S16x64x1x14x14_S16x64x1x14x14_S16x64x1x14x14_S16x64x1x14x14_S16x64x1x14x14_S16x64x1x14x14_S16x64x9x14x14_d2 : Shape.Concatenates [S16x64x1x14x14, S16x64x1x14x14, S16x64x1x14x14, S16x64x1x14x14, S16x64x1x14x14, S16x64x1x14x14, S16x64x1x14x14, S16x64x1x14x14, S16x64x1x14x14] S16x64x9x14x14 2
  shapeCasts_S16x64x9x14x14_S16x576x196 : S16x64x9x14x14.ShapeCasts S16x576x196
  shapeCasts_S64x64x3x3_S64x576 : S64x64x3x3.ShapeCasts S64x576
  bcast_S64x576_S1x64x576x1_1_2 : S64x576.BroadcastsInDim S1x64x576x1 (![1, 2] : Fin 2 → Fin S1x64x576x1.rank)
  bcast_S16x576x196_S16x1x576x196_0_2_3 : S16x576x196.BroadcastsInDim S16x1x576x196 (![0, 2, 3] : Fin 3 → Fin S16x1x576x196.rank)
  bcast_S1x64x576x1_S16x64x576x196_0_1_2_3 : S1x64x576x1.BroadcastsInDim S16x64x576x196 (![0, 1, 2, 3] : Fin 4 → Fin S16x64x576x196.rank)
  bcast_S16x1x576x196_S16x64x576x196_0_1_2_3 : S16x1x576x196.BroadcastsInDim S16x64x576x196 (![0, 1, 2, 3] : Fin 4 → Fin S16x64x576x196.rank)
  reducesTo_S16x64x576x196_S16x64x196_d2 : S16x64x576x196.ReducesTo [2] S16x64x196
  shapeCasts_S16x64x196_S16x64x14x14 : S16x64x196.ShapeCasts S16x64x14x14

variable [Facts₀]

class Facts : Prop extends Facts₀ where

variable [Facts]
-- ==== Proof.FrKernel.Kit.lean ====
/-
  The launch side of the frame of the L1-distance kernel, for any float family: the memory as the
  region finds it (the host lines before it folded over the launch memory), @main reduced to the
  region continued by the one reshape after it, the two argument arrays untouched by every host
  line, each window's block read off its array, the two branch conditions of the body decided over
  the 16 × 9 grid (the accumulator is reset where the chunk index is 0 and the output is stored where
  it is 8), and where the output window is idle.
-/
import proofs.«108680_j24756191494450_1_alg».proof.Proof.Gen.Kernel.Launch
import proofs.«108680_j24756191494450_1_alg».proof.Proof.Gen.Kernel.Skeleton
import proofs.«108680_j24756191494450_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the three stretches of host lines before it
    (the constant, the padding, then the nine shifted slices stacked and flattened and the weight
    matrix flattened and transposed) folded over the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, one more host line: it reduces to the region continued by that line,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's three arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes the activations: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- The line after the region does not write the activations either: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the weights. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch window's current staging buffer holds its block at every point, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two argument arrays are staged by no window, so the frame run's post gives each at what the line
    after the region leaves, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branch conditions -/

/-- "The chunk index is 0" (the accumulator is reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- "The chunk index is 8" (the negated accumulator is stored to the output). -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the chunk index is not 8 the body stores nothing into the output window and the pipeline does not write it back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where it is 8 the window is live. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x64x196 .f32 := (Memref.whole cc0_stg2_0 : Memref sig .tc .vmem S1x64x196 .f32).view
abbrev ms0_0 (t : Fin cfg0.N) : Memref sig .tc .vmem S1x64x196 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x196 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0_0 : Memref sig .tc .vmem S64x196 .f32 := Memref.whole cc0_scratch0
abbrev VS0_0 : View sig .tc .vmem S64x196 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrKernel.RunA.lean ====
/-
  The body at a grid point where the chunk index is 0: the accumulator is overwritten with zeros, read
  back, the chunk's sum of absolute differences is added and the result stored; the output window is
  not touched. The pieces the accumulator ends with are found by running the body.
-/
import proofs.«108680_j24756191494450_1_alg».proof.Proof.FrKernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (reset, no output store): on whole memrefs — the two inputs at their blocks, the output's at
    contents handed back untouched, the accumulator at anything — the body runs to the continuation with
    the accumulator holding the pieces `LS0` written. -/
noncomputable def kernelRun0_A (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) :
    Σ' (L2 : List (View.Piece (Elt F) S1x64x196 .f32)), { LS0 : List (View.Piece (Elt F) S64x196 .f32) //
      ∀ (xi2 : Vec F S1x64x196 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨[], ?_, fun xi2 E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.RunB.lean ====
/-
  The body at a grid point where the chunk index is neither 0 nor 8: the accumulator, at what the point
  before left, is read, the chunk's sum of absolute differences is added and the result stored; the
  output window is not touched.
-/
import proofs.«108680_j24756191494450_1_alg».proof.Proof.FrKernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (no reset, no output store): the accumulator comes at `xs0` and ends with the pieces `LS0` written. -/
noncomputable def kernelRun0_B (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) :
    Σ' (L2 : List (View.Piece (Elt F) S1x64x196 .f32)), { LS0 : List (View.Piece (Elt F) S64x196 .f32) //
      ∀ (xi2 : Vec F S1x64x196 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨[], ?_, fun xi2 E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.RunC.lean ====
/-
  The body at a grid point where the chunk index is 8: the accumulator, at what the point before left, is
  read, the last chunk's sum is added and stored, then the accumulator is read again and zero minus it is
  stored to the output window, whole.
-/
import proofs.«108680_j24756191494450_1_alg».proof.Proof.FrKernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (no reset, output stored): the accumulator comes at `xs0`, the output window at anything; they end
    with the pieces `LS0` and `L2` written. -/
noncomputable def kernelRun0_C (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) :
    Σ' (L2 : List (View.Piece (Elt F) S1x64x196 .f32)), { LS0 : List (View.Piece (Elt F) S64x196 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨?_, ?_, fun E K => ?run⟩
  case run =>
    simp only [cc0__l1_kernel_eq_skeleton]; unfold cc0__l1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrKernel.Frame.lean ====
/-
  The frame of the L1-distance kernel, for any float family: what the accumulator and the output
  window's staging buffer hold after each grid point (by recursion on the point: the accumulator restarts
  where the chunk index is 0 and otherwise continues from the point before), the pipeline's proof data over
  it, the body obligation case by case, and the run of @main: it terminates, faults nowhere, and leaves both
  argument arrays as launched.
-/
import proofs.«108680_j24756191494450_1_alg».proof.Proof.FrKernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output window: a placeholder nothing consults. -/
def out0_A_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) : Vec F S1x64x196 .f32 :=
  VO0_2.read (Elt F) (VO0_2.writes (Elt F) VO0_2.junk (kernelRun0_A c i arg2 harg2 arg3 harg3 arg4 harg4 arg5 harg5 hc0 hc1 x0 x1).1)

/-- Case A's two whole stores cover the accumulator. -/
theorem scover0_A_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) (y : S64x196.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x196.size (by sl_kernel_rfl) y

/-- What case A leaves in the accumulator. -/
def sout0_A_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) : Vec F S64x196 .f32 :=
  VS0_0.read (Elt F) (VS0_0.writes (Elt F) VS0_0.junk (kernelRun0_A c i arg2 harg2 arg3 harg3 arg4 harg4 arg5 harg5 hc0 hc1 x0 x1).2.1)

/-- Case B stores nothing into the output window either. -/
def out0_B_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) : Vec F S1x64x196 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) (y : S64x196.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x196.size (by sl_kernel_rfl) y

/-- What case B leaves in the accumulator. -/
def sout0_B_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) : Vec F S64x196 .f32 :=
  VS0_0.read (Elt F) (VS0_0.writes (Elt F) VS0_0.junk (kernelRun0_B c i arg2 harg2 arg3 harg3 arg4 harg4 arg5 harg5 hc0 hc1 x0 x1 xs0).2.1)

/-- Case C's one whole store covers the output window's block. -/
theorem cover0_C_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) (y : S1x64x196.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x196.size (by sl_kernel_rfl) y

/-- What case C leaves in the output window's staging buffer. -/
def out0_C_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) : Vec F S1x64x196 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) (y : S64x196.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x196.size (by sl_kernel_rfl) y

/-- What case C leaves in the accumulator. -/
def sout0_C_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) : Vec F S64x196 .f32 :=
  VS0_0.read (Elt F) (VS0_0.writes (Elt F) VS0_0.junk (kernelRun0_C c i arg2 harg2 arg3 harg3 arg4 harg4 arg5 harg5 hc0 hc1 x0 x1 xs0).2.1)

/-! ## What the output window and the accumulator hold after each point -/

/-- After the body at position `n`: (the output window's staging buffer, the accumulator). The case is the one
    the closed forms select at `n`; cases B and C start from the accumulator the point before left. -/
def outsAt0 (c : Dev nD) : (n : ℕ) → n < cfg0.N → Vec F S1x64x196 .f32 × Vec F S64x196 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 9 = 0 then
      if h1 : (n + 1) % 9 = 8 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 9 = 8 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 9 = 0) (h1 : ¬t.val % 9 = 8) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in;
    the invariant hands over the accumulator (at anything at the very first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h0 : t.val % 9 = 0
  · by_cases h1 : t.val % 9 = 8
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 9 = 8
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 144 := N_0; omega)

/-! ## The run and the frame -/

set_option backward.isDefEq.respectTransparency.types false in
/-- Every weakly fair execution of @main terminates, and every final state has each of the pipeline's arrays at what
    the library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.FrKernelIdeal.Kit.lean ====
/-
  The launch side of the frame of the L1-distance kernel, for any float family: the memory as the
  region finds it (the host lines before it folded over the launch memory), @main reduced to the
  region continued by the one reshape after it, the two argument arrays untouched by every host
  line, each window's block read off its array, the two branch conditions of the body decided over
  the 16 × 9 grid (the accumulator is reset where the chunk index is 0 and the output is stored where
  it is 8), and where the output window is idle.
-/
import proofs.«108680_j24756191494450_1_alg».proof.Proof.Gen.KernelIdeal.Launch
import proofs.«108680_j24756191494450_1_alg».proof.Proof.Gen.KernelIdeal.Skeleton
import proofs.«108680_j24756191494450_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the three stretches of host lines before it
    (the constant, the padding, then the nine shifted slices stacked and flattened and the weight
    matrix flattened and transposed) folded over the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, one more host line: it reduces to the region continued by that line,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's three arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes the activations: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- The line after the region does not write the activations either: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the weights. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch window's current staging buffer holds its block at every point, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two argument arrays are staged by no window, so the frame run's post gives each at what the line
    after the region leaves, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branch conditions -/

/-- "The chunk index is 0" (the accumulator is reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- "The chunk index is 8" (the negated accumulator is stored to the output). -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the chunk index is not 8 the body stores nothing into the output window and the pipeline does not write it back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where it is 8 the window is live. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x64x196 .f32 := (Memref.whole cc0_stg2_0 : Memref sig .tc .vmem S1x64x196 .f32).view
abbrev ms0_0 (t : Fin cfg0.N) : Memref sig .tc .vmem S1x64x196 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x196 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0_0 : Memref sig .tc .vmem S64x196 .f32 := Memref.whole cc0_scratch0
abbrev VS0_0 : View sig .tc .vmem S64x196 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrKernelIdeal.RunA.lean ====
/-
  The body at a grid point where the chunk index is 0: the accumulator is overwritten with zeros, read
  back, the chunk's sum of absolute differences is added and the result stored; the output window is
  not touched. The pieces the accumulator ends with are found by running the body.
-/
import proofs.«108680_j24756191494450_1_alg».proof.Proof.FrKernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (reset, no output store): on whole memrefs — the two inputs at their blocks, the output's at
    contents handed back untouched, the accumulator at anything — the body runs to the continuation with
    the accumulator holding the pieces `LS0` written. -/
noncomputable def kernelRun0_A (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) :
    Σ' (L2 : List (View.Piece (Elt F) S1x64x196 .f32)), { LS0 : List (View.Piece (Elt F) S64x196 .f32) //
      ∀ (xi2 : Vec F S1x64x196 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨[], ?_, fun xi2 E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.RunB.lean ====
/-
  The body at a grid point where the chunk index is neither 0 nor 8: the accumulator, at what the point
  before left, is read, the chunk's sum of absolute differences is added and the result stored; the
  output window is not touched.
-/
import proofs.«108680_j24756191494450_1_alg».proof.Proof.FrKernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (no reset, no output store): the accumulator comes at `xs0` and ends with the pieces `LS0` written. -/
noncomputable def kernelRun0_B (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) :
    Σ' (L2 : List (View.Piece (Elt F) S1x64x196 .f32)), { LS0 : List (View.Piece (Elt F) S64x196 .f32) //
      ∀ (xi2 : Vec F S1x64x196 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨[], ?_, fun xi2 E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.RunC.lean ====
/-
  The body at a grid point where the chunk index is 8: the accumulator, at what the point before left, is
  read, the last chunk's sum is added and stored, then the accumulator is read again and zero minus it is
  stored to the output window, whole.
-/
import proofs.«108680_j24756191494450_1_alg».proof.Proof.FrKernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (no reset, output stored): the accumulator comes at `xs0`, the output window at anything; they end
    with the pieces `LS0` and `L2` written. -/
noncomputable def kernelRun0_C (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) :
    Σ' (L2 : List (View.Piece (Elt F) S1x64x196 .f32)), { LS0 : List (View.Piece (Elt F) S64x196 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__l1_kernel i arg2 harg2 arg3 harg3 arg4 harg4 arg5 harg5) K } := by
  refine ⟨?_, ?_, fun E K => ?run⟩
  case run =>
    simp only [cc0__l1_kernel_eq_skeleton]; unfold cc0__l1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrKernelIdeal.Frame.lean ====
/-
  The frame of the L1-distance kernel, for any float family: what the accumulator and the output
  window's staging buffer hold after each grid point (by recursion on the point: the accumulator restarts
  where the chunk index is 0 and otherwise continues from the point before), the pipeline's proof data over
  it, the body obligation case by case, and the run of @main: it terminates, faults nowhere, and leaves both
  argument arrays as launched.
-/
import proofs.«108680_j24756191494450_1_alg».proof.Proof.FrKernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output window: a placeholder nothing consults. -/
def out0_A_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) : Vec F S1x64x196 .f32 :=
  VO0_2.read (Elt F) (VO0_2.writes (Elt F) VO0_2.junk (kernelRun0_A c i arg2 harg2 arg3 harg3 arg4 harg4 arg5 harg5 hc0 hc1 x0 x1).1)

/-- Case A's two whole stores cover the accumulator. -/
theorem scover0_A_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) (y : S64x196.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x196.size (by sl_kernel_rfl) y

/-- What case A leaves in the accumulator. -/
def sout0_A_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) : Vec F S64x196 .f32 :=
  VS0_0.read (Elt F) (VS0_0.writes (Elt F) VS0_0.junk (kernelRun0_A c i arg2 harg2 arg3 harg3 arg4 harg4 arg5 harg5 hc0 hc1 x0 x1).2.1)

/-- Case B stores nothing into the output window either. -/
def out0_B_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) : Vec F S1x64x196 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) (y : S64x196.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x196.size (by sl_kernel_rfl) y

/-- What case B leaves in the accumulator. -/
def sout0_B_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) : Vec F S64x196 .f32 :=
  VS0_0.read (Elt F) (VS0_0.writes (Elt F) VS0_0.junk (kernelRun0_B c i arg2 harg2 arg3 harg3 arg4 harg4 arg5 harg5 hc0 hc1 x0 x1 xs0).2.1)

/-- Case C's one whole store covers the output window's block. -/
theorem cover0_C_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) (y : S1x64x196.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x196.size (by sl_kernel_rfl) y

/-- What case C leaves in the output window's staging buffer. -/
def out0_C_2 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) : Vec F S1x64x196 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) (y : S64x196.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x196.size (by sl_kernel_rfl) y

/-- What case C leaves in the accumulator. -/
def sout0_C_0 (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) : Vec F S64x196 .f32 :=
  VS0_0.read (Elt F) (VS0_0.writes (Elt F) VS0_0.junk (kernelRun0_C c i arg2 harg2 arg3 harg3 arg4 harg4 arg5 harg5 hc0 hc1 x0 x1 xs0).2.1)

/-! ## What the output window and the accumulator hold after each point -/

/-- After the body at position `n`: (the output window's staging buffer, the accumulator). The case is the one
    the closed forms select at `n`; cases B and C start from the accumulator the point before left. -/
def outsAt0 (c : Dev nD) : (n : ℕ) → n < cfg0.N → Vec F S1x64x196 .f32 × Vec F S64x196 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 9 = 0 then
      if h1 : (n + 1) % 9 = 8 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 9 = 8 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 9 = 0) (h1 : ¬t.val % 9 = 8) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in;
    the invariant hands over the accumulator (at anything at the very first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h0 : t.val % 9 = 0
  · by_cases h1 : t.val % 9 = 8
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 9 = 8
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 144 := N_0; omega)

/-! ## The run and the frame -/

set_option backward.isDefEq.respectTransparency.types false in
/-- Every weakly fair execution of @main terminates, and every final state has each of the pipeline's arrays at what
    the library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KVal.Pieces.lean ====
/-
  What each case of the body leaves, as values: the accumulator after a point is the stored sum
  `k0_pay2` of the two input blocks over the accumulator the body read (the zero fill `k0_pay1` where the
  chunk index is 0, else what the point before left), and at chunk index 8 the output block is
  `k0_pay3` of that accumulator (zero minus it). Every store is through the whole buffer, so the last
  store alone decides the contents and a load after a whole store reads the stored value.
-/
import proofs.«108680_j24756191494450_1_alg».proof.Proof.FrKernelIdeal.Frame
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- After a reset point the accumulator holds the chunk's sum over the zero fill. -/
theorem sout_A (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : cond0_0 i) (hc1 : ¬cond0_1 i)
    (x0 : Vec F S1x64x196 .f32) (x1 : Vec F S64x64 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x196) hz2]
  simp only [View.readAt_eq_ld, harg2.read_unread, harg3.read_unread, harg5.read_unread,
    View.ld_unit_zero (S := S1x64x196) hz3, View.ld_unit_zero (S := S64x64) hz2, View.ld_unit_zero (S := S64x196) hz2,
    View.readCov_unit_zero (S := S64x196) _ hz2]

/-- After a middle point it holds the chunk's sum over what it held before. -/
theorem sout_B (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : ¬cond0_1 i)
    (x0 : Vec F S1x64x196 .f32) (x1 : Vec F S64x64 .f32) (xs0 : Vec F S64x196 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S64x196) hz2]
  simp only [View.readAt_eq_ld, harg2.read_unread, harg3.read_unread, harg5.read_unread,
    View.ld_unit_zero (S := S1x64x196) hz3, View.ld_unit_zero (S := S64x64) hz2, View.ld_unit_zero (S := S64x196) hz2,
    View.readCov_unit_zero (S := S64x196) _ hz2]

/-- After a last-chunk point likewise, -/
theorem sout_C (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S64x196) hz2]
  simp only [View.readAt_eq_ld, harg2.read_unread, harg3.read_unread, harg5.read_unread,
    View.ld_unit_zero (S := S1x64x196) hz3, View.ld_unit_zero (S := S64x64) hz2, View.ld_unit_zero (S := S64x196) hz2,
    View.readCov_unit_zero (S := S64x196) _ hz2]

/-- and the output block is zero minus that accumulator. -/
theorem out_C (c : Dev nD) (i : grid0.Coords) (arg2 : Memref sig .tc .vmem S1x64x196 .f32) (harg2 : arg2.IsWhole) (arg3 : Memref sig .tc .vmem S64x64 .f32) (harg3 : arg3.IsWhole) (arg4 : Memref sig .tc .vmem S1x64x196 .f32) (harg4 : arg4.IsWhole) (arg5 : Memref sig .tc .vmem S64x196 .f32) (harg5 : arg5.IsWhole) (hc0 : ¬cond0_0 i) (hc1 : cond0_1 i)
    (x0 : Vec F S1x64x196 .f32) (x1 : Vec F S64x64 .f32) (xs0 : Vec F S64x196 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x64x196) hz3]
  simp only [View.readAt_eq_ld, harg2.read_unread, harg3.read_unread, harg5.read_unread,
    View.ld_unit_zero (S := S1x64x196) hz3, View.ld_unit_zero (S := S64x64) hz2, View.ld_unit_zero (S := S64x196) hz2,
    View.readCov_unit_zero (S := S64x196) _ hz2]

end Cert.KernelIdeal.KVal

end
-- ==== Proof.KVal.Blocks.lean ====
/-
  Where a window's block sits in its array. Grid point t is image n = t / 9, chunk j = t % 9. The patch
  window's block at t is rows 64 j … 64 j + 63 of image n of the unfolded patches [16, 576, 196]; the weight
  window's block is rows 64 j … 64 j + 63 of the transposed weights [576, 64]; the output window's block is
  image n of the result [16, 64, 196].
-/
import proofs.«108680_j24756191494450_1_alg».proof.Proof.FrKernelIdeal.Frame
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The three index maps over the grid, decided once. -/
theorem idx_w0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)
theorem idx_w1 : ∀ t : Fin cfg0.N, win0_1.index t 0 = t.val % 9 ∧ win0_1.index t 1 = 0 :=
  (by decide +kernel : ∀ t : Fin grid0.N, win0_1.index t 0 = t.val % 9 ∧ win0_1.index t 1 = 0)
theorem idx_w2 : ∀ t : Fin cfg0.N, win0_2.index t 0 = t.val / 9 ∧ win0_2.index t 1 = 0 ∧ win0_2.index t 2 = 0 :=
  (by decide +kernel : ∀ t : Fin grid0.N, win0_2.index t 0 = t.val / 9 ∧ win0_2.index t 1 = 0 ∧ win0_2.index t 2 = 0)

/-- The patch block at t, read at (0, dd, p), is the patches array at (t / 9, 64 (t % 9) + dd, p). -/
theorem iblk0_apply (c : Dev nD) (t : Fin cfg0.N) (x : S1x64x196.Idx) (k : S16x576x196.Idx)
    (hk0 : (k 0).val = t.val / 9) (hk1 : (k 1).val = 64 * (t.val % 9) + (x 1).val) (hk2 : (k 2).val = (x 2).val) :
    (iblk m c 0 t : Vec F S1x64x196 .f32) x = (V m c main_v20 : S16x576x196.Idx → Elt F .f32) k := by
  obtain ⟨h0, h1, h2⟩ := idx_w0 t
  have hx0 : (x 0).val = 0 := by have h : (x 0).val < 1 := (x 0).isLt; omega
  unfold iblk
  rw [View.read_apply]
  show V m c main_v20 _ = V m c main_v20 _
  congr 1
  funext a
  apply Fin.ext
  match a with
  | ⟨0, _⟩ => show win0_0.index t 0 * 1 + 1 * (x 0).val = (k 0).val; rw [h0, hk0, hx0]; omega
  | ⟨1, _⟩ => show win0_0.index t 1 * 64 + 1 * (x 1).val = (k 1).val; rw [h1, hk1]; omega
  | ⟨2, _⟩ => show win0_0.index t 2 * 196 + 1 * (x 2).val = (k 2).val; rw [h2, hk2]; omega

/-- The weight block at t, read at (dd, f), is the transposed weights at (64 (t % 9) + dd, f). -/
theorem iblk1_apply (c : Dev nD) (t : Fin cfg0.N) (x : S64x64.Idx) (k : S576x64.Idx)
    (hk0 : (k 0).val = 64 * (t.val % 9) + (x 0).val) (hk1 : (k 1).val = (x 1).val) :
    (iblk m c 1 t : Vec F S64x64 .f32) x = (V m c main_v22 : S576x64.Idx → Elt F .f32) k := by
  obtain ⟨h0, h1⟩ := idx_w1 t
  unfold iblk
  rw [View.read_apply]
  show V m c main_v22 _ = V m c main_v22 _
  congr 1
  funext a
  apply Fin.ext
  match a with
  | ⟨0, _⟩ => show win0_1.index t 0 * 64 + 1 * (x 0).val = (k 0).val; rw [h0, hk0]; omega
  | ⟨1, _⟩ => show win0_1.index t 1 * 64 + 1 * (x 1).val = (k 1).val; rw [h1, hk1]; omega

end Cert.KernelIdeal.KVal

end
-- ==== Proof.Payload.lean ====
/-
  The three values the kernel body stores, read at an index, at the ideal instance (a float an extended real).
  The body of one grid step holds a [64 f, 196 p] accumulator. At the first chunk it stores the zero splat; at every
  chunk it adds to the accumulator, at (f, p), the sum over the chunk's 64 rows d of |Wt[d, f] − X[0, d, p]|, the
  difference taken on the [64 d, 64 f, 196 p] box both operands are broadcast to and summed along its axis 0; at the
  last chunk it stores 0 − accumulator as a [1, 64, 196] block. Neither the absolute value nor the subtraction is
  opened: each statement keeps the scalar term the body applies.

  First the layout facts the chain needs that are stated here over literal coordinates: a trailing and a middle unit
  axis added by a shape cast, the two broadcasts along such a unit axis, and a sum along axis 0 of a rank-3 box.
-/
import proofs.«108680_j24756191494450_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout operations over literal coordinates -/

section Layout
variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry over `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one entry over `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-- A sum along axis 0 of an `[a, b, c]` box of extended reals reads, at `(j, k)`, the sum over `d` of the box at
`(d, j, k)`. -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (j : Fin b) (k : Fin c) :
    multiReduction .add [0] ⟨2, ![b, c]⟩ src acc h hφ hacc (ix2 j k) = ∑ d : Fin a, src (ix3 d j k) := by
  refine (Ideal.multiReduction_add_single src acc h hφ hacc (ix2 j k)).trans ?_
  refine Finset.sum_congr rfl fun d _ => congrArg src ?_
  funext ax
  match ax with
  | ⟨0, _⟩ => exact Fin.ext rfl
  | ⟨1, _⟩ => exact Fin.ext rfl
  | ⟨2, _⟩ => exact Fin.ext rfl

/-! ## The three stored values at an index -/

/-- The value stored at the first chunk is zero everywhere. -/
theorem pay1_apply (f : Fin 64) (p : Fin 196) : (k0_pay1 (F := Ideal)) (ix2 f p) = 0 := by
  unfold k0_pay1
  refine (congrFun (shapeCast_self _ _) (ix2 f p)).trans ?_
  exact Ideal.ofBits_zero_f32

/-- The value stored at every chunk: the accumulator plus, at `(f, p)`, the sum over the chunk's rows `d` of
`|w[d, f] − x[0, d, p]|`. -/
theorem pay2_apply (x : Vec Ideal S1x64x196 .f32) (w : Vec Ideal S64x64 .f32) (a : Vec Ideal S64x196 .f32)
    (f : Fin 64) (p : Fin 196) :
    k0_pay2 x w a (ix2 f p)
      = a (ix2 f p) + ∑ dd : Fin 64, FloatOps.absf (F := Ideal) (φ := .f32) (w (ix2 dd f) - x (ix3 (0 : Fin 1) dd p)) := by
  unfold k0_pay2
  refine (congrFun (shapeCast_self _ _) (ix2 f p)).trans ?_
  refine congrArg (a (ix2 f p) + ·) ?_
  refine (multiReduction_add_axis0_apply _ _ _ _ _ f p).trans ?_
  refine Finset.sum_congr rfl fun dd _ => ?_
  refine congrArg (FloatOps.absf (F := Ideal) (φ := .f32)) ?_
  refine congrArg₂ (· - ·) ?_ ?_
  · refine (broadcastTo_ab1_abc_apply _ _ dd f p).trans ?_
    refine (shapeCast_ab_ab1_apply _ _ dd f (0 : Fin 1)).trans ?_
    exact congrFun (shapeCast_self _ _) (ix2 dd f)
  · refine (broadcastTo_a1c_abc_apply _ _ dd f p).trans ?_
    refine (shapeCast_ab_a1b_apply _ _ dd (0 : Fin 1) p).trans ?_
    exact shapeCast_1ab_ab_apply _ _ dd p

/-- The value stored at the last chunk: zero minus the accumulator, as a `[1, 64, 196]` block. -/
theorem pay3_apply (a : Vec Ideal S64x196 .f32) (f : Fin 64) (p : Fin 196) :
    k0_pay3 a (ix3 (0 : Fin 1) f p) = 0 - a (ix2 f p) := by
  unfold k0_pay3
  refine (shapeCast_ab_1ab_apply _ _ (0 : Fin 1) f p).trans ?_
  exact congrArg (· - a (ix2 f p)) Ideal.ofBits_zero_f32

end Cert.KernelIdeal.Pay

end
-- ==== Proof.Spec.lean ====
/-
  The two orders of one sum. At output position (n, f, p) both programs add the 576 extended reals
  |W[f, d] − X[n, d, p]| and negate: the reference in one host reduction, the kernel chunk by chunk —
  64 terms at a time, the first chunk added to zero, each later one added to the running total — and
  then subtracts the total from zero. Addition of extended reals is commutative and associative, so the
  two totals agree whatever the entries are (no finiteness is used).
-/
import Idealize.ShloMosaic.PureOps.Ideal
import Idealize.ShloMosaic.Lib.ValueIdx

noncomputable section

namespace Cert.L1

open Idealize.ShloMosaic Idealize.ShloMosaic.ValueIdx

/-- The kernel's accumulation order over a sequence of terms: chunk 0 added to zero, then each further chunk
    of 64 consecutive terms added to the running total. -/
def chunkAcc (g : ℕ → EReal) : ℕ → EReal
  | 0 => 0 + ∑ dd : Fin 64, g dd.val
  | j + 1 => chunkAcc g j + ∑ dd : Fin 64, g (64 * (j + 1) + dd.val)

/-- A family over the 576 reduction positions as a sequence (zero past the end, never read). -/
def seqOf (h : Fin 576 → EReal) : ℕ → EReal := fun k => if hk : k < 576 then h ⟨k, hk⟩ else 0

theorem seqOf_lt (h : Fin 576 → EReal) (k : ℕ) (hk : k < 576) : seqOf h k = h ⟨k, hk⟩ := dif_pos hk

/-- The negated L1 distance of weight column f (of the transposed [576, 64] weights) to patch column p of
    image n, as the kernel forms it: zero minus the whole sum. -/
def negDist (X : (⟨3, ![16, 576, 196]⟩ : Shape).Idx → EReal) (Wt : (⟨2, ![576, 64]⟩ : Shape).Idx → EReal) :
    (⟨3, ![16, 64, 196]⟩ : Shape).Idx → EReal :=
  fun j => 0 - ∑ d : Fin 576, FloatOps.absf (F := Ideal) (φ := .f32) (Wt (ix2 d (j 1)) - X (ix3 (j 0) d (j 2)))

end Cert.L1

end
-- ==== Proof.RefAt.lean ====
/-
  The reference's result read at an index, at the ideal instance, and the chunked form of a sum of 576 terms.

  The reference computes, for a batch row n, an output feature f and a position p,
      -(∑ d, |w[f, d] - u[n, d, p]|)
  where w is the weight array flattened to [64, 576] and u the array of unfolded patches, [16, 576, 196]. Both stay
  opaque here: the statement is about the subtraction, the absolute value, the sum over d and the negation only.
  The two operands reach the subtraction through two broadcasts each; read at the index (n, f, d, p) they are w at
  (f, d) and u at (n, d, p).

  The last section is pure arithmetic on the extended reals: adding nine consecutive blocks of 64 terms one after the
  other, in the accumulation order fixed in Spec, gives the sum of all 576 terms.
-/
import proofs.«108680_j24756191494450_1_alg».proof.Proof.Gen.ReferenceIdeal.Read
import proofs.«108680_j24756191494450_1_alg».proof.Proof.Spec
import Idealize.ShloMosaic.Lib.ValueIdx
import Idealize.ShloMosaic.PureOps.Ideal.Laws
import Mathlib.Data.Fintype.BigOperators
import Mathlib.Algebra.BigOperators.Group.Finset.Basic
import Mathlib.Data.EReal.Basic

noncomputable section

open scoped BigOperators

namespace Cert.ReferenceIdeal.RefValue

open Cert.ReferenceIdeal Cert.ReferenceIdeal.Gen Cert.ReferenceIdeal.Read Idealize.ShloMosaic Idealize.ShloMosaic.ValueIdx

/-- Through the two broadcasts of the weights, the index (n, f, d, p) reads the flattened weights at (f, d). -/
theorem idx_weights (n : Fin 16) (f : Fin 64) (p : Fin 196) (d : Fin 576) :
    idx_main_v22 (idx_main_v24 (idx_main_v28 (ix3 n f p) d)) = ix2 f d :=
  funext fun a => Fin.ext (by match a with | ⟨0, _⟩ => rfl | ⟨1, _⟩ => rfl)

/-- Through the two broadcasts of the patches, the index (n, f, d, p) reads the unfolded patches at (n, d, p). -/
theorem idx_patches (n : Fin 16) (f : Fin 64) (p : Fin 196) (d : Fin 576) :
    idx_main_v23 (idx_main_v25 (idx_main_v28 (ix3 n f p) d)) = ix3 n d p :=
  funext fun a => Fin.ext (by match a with | ⟨0, _⟩ => rfl | ⟨1, _⟩ => rfl | ⟨2, _⟩ => rfl)

/-- The negated sum at (n, f, p): minus the sum over d of |w[f, d] - u[n, d, p]|. -/
theorem ref29_apply (x0 : Vec Ideal S16x64x14x14 .f32) (x1 : Vec Ideal S64x64x3x3 .f32) (n : Fin 16) (f : Fin 64) (p : Fin 196) :
    val_main_v29 x0 x1 (ix3 n f p) = -(∑ d : Fin 576, FloatOps.absf (F := Ideal) (φ := .f32) (val_main_v21 x1 (ix2 f d) - val_main_v20 x0 (ix3 n d p))) := by
  rw [val_main_v29_apply, val_main_v28_apply, val_main_cst_apply, Ideal.ofBits_def, Ideal.ofBits_zero_f32, zero_add, Ideal.hostNegf_def,
    Ideal.negf_def]
  refine congrArg Neg.neg (Finset.sum_congr rfl fun d _ => ?_)
  rw [val_main_v27_apply, val_main_v26_apply, val_main_v24_apply, val_main_v22_apply, val_main_v25_apply, val_main_v23_apply,
    idx_weights, idx_patches, Ideal.hostAbsf_def]
  rfl

/-- The result is the negated sum, reshaped from [16, 64, 196] to [16, 64, 14, 14]. -/
theorem v30_eq (x0 : Vec Ideal S16x64x14x14 .f32) (x1 : Vec Ideal S64x64x3x3 .f32) :
    val_main_v30 x0 x1 = shapeCast S16x64x14x14 (val_main_v29 x0 x1) shapeCasts_S16x64x196_S16x64x14x14 := rfl

end Cert.ReferenceIdeal.RefValue

namespace Cert.L1

/-- Blocks of 64 added one after the other: after block j the running total is the sum of the first 64 (j + 1)
    terms. The extended reals are an additive commutative monoid, so nothing about finiteness is needed. -/
theorem chunk_fold (g : ℕ → EReal) (j : ℕ) : chunkAcc g j = ∑ k ∈ Finset.range (64 * (j + 1)), g k := by
  induction j with
  | zero =>
    show 0 + ∑ dd : Fin 64, g dd.val = ∑ k ∈ Finset.range (64 * (0 + 1)), g k
    rw [zero_add, Fin.sum_univ_eq_sum_range g 64]
  | succ j ih =>
    show chunkAcc g j + ∑ dd : Fin 64, g (64 * (j + 1) + dd.val) = ∑ k ∈ Finset.range (64 * (j + 1 + 1)), g k
    rw [ih, Fin.sum_univ_eq_sum_range (fun k => g (64 * (j + 1) + k)) 64, show 64 * (j + 1 + 1) = 64 * (j + 1) + 64 by ring,
      Finset.sum_range_add]

/-- After the ninth block the running total is the sum over all 576 positions, for a sequence on the naturals. -/
theorem chunk_fold_fin (g : ℕ → EReal) : chunkAcc g 8 = ∑ d : Fin 576, g d.val := by
  rw [chunk_fold g 8, Fin.sum_univ_eq_sum_range g 576]

/-- The same for a family over the 576 positions, read as a sequence. -/
theorem chunk_fold_univ (h : Fin 576 → EReal) : chunkAcc (seqOf h) 8 = ∑ d : Fin 576, h d :=
  (chunk_fold_fin (seqOf h)).trans (Finset.sum_congr rfl fun d _ => seqOf_lt h d.val d.isLt)

end Cert.L1

end
-- ==== Proof.KVal.Acc.lean ====
/-
  The accumulator after each grid point, at the extended reals. At point t (image n = t / 9, chunk
  j = t % 9) and position (f, p) it holds the kernel's running total of the terms
  |Wt[d, f] − X[n, d, p]| over d < 64 (j + 1): chunk 0 added to zero, each later chunk added to what the
  point before left. At chunk 8 the output block is zero minus that total, which is the negated sum over all
  576 reduction positions.
-/
import proofs.«108680_j24756191494450_1_alg».proof.Proof.FrKernelIdeal.Frame
import proofs.«108680_j24756191494450_1_alg».proof.Proof.KVal.Pieces
import proofs.«108680_j24756191494450_1_alg».proof.Proof.KVal.Blocks
import proofs.«108680_j24756191494450_1_alg».proof.Proof.Payload
import proofs.«108680_j24756191494450_1_alg».proof.Proof.Spec
import proofs.«108680_j24756191494450_1_alg».proof.Proof.RefAt
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

open Cert.L1 Cert.KernelIdeal.Pay

variable (m : (ℓ : Loc nD τ sig) → Buf (Elt Ideal) ℓ)

/-- The unfolded patches and the transposed weights as the region finds them, at their literal types. -/
abbrev Xk (c : Dev nD) : Vec Ideal S16x576x196 .f32 := V m c main_v20
abbrev Wk (c : Dev nD) : Vec Ideal S576x64 .f32 := V m c main_v22
/-- The two input blocks at a grid point, at their literal types. -/
abbrev xblk (c : Dev nD) (t : Fin cfg0.N) : Vec Ideal S1x64x196 .f32 := iblk m c 0 t
abbrev wblk (c : Dev nD) (t : Fin cfg0.N) : Vec Ideal S64x64 .f32 := iblk m c 1 t

/-- The 576 terms at output position (n, f, p). -/
def termsK (c : Dev nD) (n : Fin 16) (f : Fin 64) (p : Fin 196) : Fin 576 → EReal :=
  fun d => FloatOps.absf (F := Ideal) (φ := .f32) (Wk m c (ix2 d f) - Xk m c (ix3 n d p))

/-- The chunk the body sums at point t is terms 64 (t % 9) … 64 (t % 9) + 63 of image t / 9. -/
theorem chunk_terms (c : Dev nD) (t : Fin cfg0.N) (n : Fin 16) (hn : n.val = t.val / 9) (f : Fin 64) (p : Fin 196) :
    (∑ dd : Fin 64, FloatOps.absf (F := Ideal) (φ := .f32)
        (wblk m c t (ix2 dd f) - xblk m c t (ix3 (0 : Fin 1) dd p)))
      = ∑ dd : Fin 64, seqOf (termsK m c n f p) (64 * (t.val % 9) + dd.val) := by
  refine Finset.sum_congr rfl fun dd _ => ?_
  have hlt : 64 * (t.val % 9) + dd.val < 576 := by have := dd.isLt; omega
  rw [seqOf_lt _ _ hlt]
  unfold termsK
  have e1 : wblk m c t (ix2 dd f) = Wk m c (ix2 ⟨64 * (t.val % 9) + dd.val, hlt⟩ f) :=
    iblk1_apply m c t (ix2 dd f) (ix2 ⟨64 * (t.val % 9) + dd.val, hlt⟩ f) rfl rfl
  have e0 : xblk m c t (ix3 (0 : Fin 1) dd p) = Xk m c (ix3 n ⟨64 * (t.val % 9) + dd.val, hlt⟩ p) :=
    iblk0_apply m c t (ix3 (0 : Fin 1) dd p) (ix3 n ⟨64 * (t.val % 9) + dd.val, hlt⟩ p) hn rfl rfl
  rw [e1, e0]

/-- At a reset point the accumulator ends at zero plus the chunk. -/
theorem acc_A (c : Dev nD) (t : Fin cfg0.N) (h0 : t.val % 9 = 0) (n : Fin 16) (hn : n.val = t.val / 9) (f : Fin 64) (p : Fin 196) :
    ((outsAt0 m c t.val t.isLt).2 : Vec Ideal S64x196 .f32) (ix2 f p)
      = 0 + ∑ dd : Fin 64, seqOf (termsK m c n f p) (64 * (t.val % 9) + dd.val) := by
  rw [outsAt0_A m c t h0 (by omega)]
  dsimp only
  rw [sout_A, pay2_apply, pay1_apply]
  exact congrArg (0 + ·) (chunk_terms m c t n hn f p)

/-- At any other point it ends at what the point before left plus the chunk. -/
theorem acc_BC (c : Dev nD) (t : Fin cfg0.N) (h0 : ¬t.val % 9 = 0) (n : Fin 16) (hn : n.val = t.val / 9) (f : Fin 64) (p : Fin 196) :
    ((outsAt0 m c t.val t.isLt).2 : Vec Ideal S64x196 .f32) (ix2 f p)
      = ((outsAt0 m c (t.val - 1) (Nat.lt_of_le_of_lt (Nat.sub_le _ _) t.isLt)).2 : Vec Ideal S64x196 .f32) (ix2 f p)
        + ∑ dd : Fin 64, seqOf (termsK m c n f p) (64 * (t.val % 9) + dd.val) := by
  by_cases h1 : t.val % 9 = 8
  · rw [outsAt0_C m c t h0 h1]
    dsimp only
    rw [sout_C, pay2_apply]
    exact congrArg (_ + ·) (chunk_terms m c t n hn f p)
  · rw [outsAt0_B m c t h0 h1]
    dsimp only
    rw [sout_B, pay2_apply]
    exact congrArg (_ + ·) (chunk_terms m c t n hn f p)

theorem N144 : cfg0.N = 144 := N_0

/-- The accumulator after point t is the kernel's running total through chunk t % 9. -/
theorem acc_val (c : Dev nD) : ∀ (t : ℕ) (ht : t < cfg0.N) (n : Fin 16) (hn : n.val = t / 9) (f : Fin 64) (p : Fin 196),
    ((outsAt0 m c t ht).2 : Vec Ideal S64x196 .f32) (ix2 f p) = chunkAcc (seqOf (termsK m c n f p)) (t % 9) := by
  intro t
  induction t with
  | zero =>
    intro ht n hn f p
    have h := acc_A m c ⟨0, ht⟩ (Nat.zero_mod 9) n hn f p
    dsimp only at h
    simp only [Nat.zero_mod, Nat.mul_zero, Nat.zero_add] at h
    exact h
  | succ s ih =>
    intro ht n hn f p
    by_cases h0 : (s + 1) % 9 = 0
    · have h := acc_A m c ⟨s + 1, ht⟩ h0 n hn f p
      dsimp only at h
      rw [h0] at h ⊢
      simp only [Nat.mul_zero, Nat.zero_add] at h
      exact h
    · have h := acc_BC m c ⟨s + 1, ht⟩ h0 n hn f p
      dsimp only at h
      have hs : s < cfg0.N := by omega
      have hn' : n.val = s / 9 := by omega
      have e : (s + 1) % 9 = s % 9 + 1 := by omega
      rw [e] at h ⊢
      rw [chunkAcc]
      exact h.trans (congrArg (· + ∑ dd : Fin 64, seqOf (termsK m c n f p) (64 * (s % 9 + 1) + dd.val)) (ih hs n hn' f p))

/-- Where the output is stored (chunk 8) its block is zero minus the accumulator the same point leaves. -/
theorem out_of_acc (c : Dev nD) (t : Fin cfg0.N) (h8 : t.val % 9 = 8) :
    (outsAt0 m c t.val t.isLt).1 = k0_pay3 (outsAt0 m c t.val t.isLt).2 := by
  rw [outsAt0_C m c t (by omega) h8]
  dsimp only
  rw [out_C, sout_C]

/-- So the block stored at chunk 8 of image n is the negated distance at (n, f, p). -/
theorem out_val (c : Dev nD) (t : Fin cfg0.N) (h8 : t.val % 9 = 8) (j : S1x64x196.Idx) (k : S16x64x196.Idx)
    (hk0 : (k 0).val = t.val / 9) (hk1 : (k 1).val = (j 1).val) (hk2 : (k 2).val = (j 2).val) :
    ((outsAt0 m c t.val t.isLt).1 : Vec Ideal S1x64x196 .f32) j = negDist (Xk m c) (Wk m c) k := by
  have hN := N144
  have hn16 : t.val / 9 < 16 := by have := t.isLt; omega
  obtain ⟨q, f, p, rfl⟩ : ∃ (q : Fin 1) (f : Fin 64) (p : Fin 196), j = ix3 q f p := ⟨j 0, j 1, j 2, eq_ix3 j⟩
  obtain rfl : q = 0 := Subsingleton.elim _ _
  obtain rfl : k = ix3 ⟨t.val / 9, hn16⟩ f p := by
    rw [eq_ix3 k]
    congr 1
    · exact Fin.ext hk0
    · exact Fin.ext hk1
    · exact Fin.ext hk2
  rw [out_of_acc m c t h8, pay3_apply, acc_val m c t.val t.isLt ⟨t.val / 9, hn16⟩ rfl f p, h8, chunk_fold_univ]
  rfl

end Cert.KernelIdeal.KVal

end
-- ==== Proof.KVal.Cover.lean ====
/-
  Two facts about the kernel program's result array that need nothing of the body's arithmetic.

  The result [16, 64, 196] is written back image by image: grid point t (image t / 9, chunk t % 9) holds the block
  [1, 64, 196] at block index (t / 9, 0, 0), and the block is written back exactly at the points whose chunk is the
  last one, t % 9 = 8. So every index (n, f, p) of the result lies in the block of the point 9 n + 8, which is
  written back: the blocks written back cover the whole array.

  After the region one host line reshapes the result to [16, 64, 14, 14]. Whatever the region leaves in the result
  array, the reshaped buffer is the reshape of it.
-/
import proofs.«108680_j24756191494450_1_alg».proof.Proof.FrKernelIdeal.Frame
import proofs.«108680_j24756191494450_1_alg».proof.Proof.KVal.Blocks
import Idealize.ShloMosaic.Lib.Pipeline.Value
import Idealize.ShloMosaic.Lib.Tactic

set_option maxRecDepth 16384

noncomputable section

namespace Cert.KernelIdeal.KVal

open Cert.KernelIdeal Cert.KernelIdeal.Gen Cert.KernelIdeal.Fr Idealize.ShloMosaic Idealize.ShloMosaic.TcCoe Idealize.SL.Sem

variable {F : FTy → Type} [FloatOps F] (m : (ℓ : Loc nD τ sig) → Buf (Elt F) ℓ)

/-- An index of the result is in point t's block iff each coordinate is in the block's range on its axis. -/
theorem mem_blk2 (t : Fin cfg0.N) (i : S16x64x196.Idx) :
    i ∈ ((cfg0.win 2).blk t).view.set ↔ ∀ a : Fin 3, win0_2.index t a * S1x64x196.size a ≤ (i a).val ∧ (i a).val < win0_2.index t a * S1x64x196.size a + S1x64x196.size a := by
  show i ∈ ((View.whole main_v23).slice (win0_2.rect t)).set ↔ _
  rw [View.set_slice_whole, Rect.mem_set_unit]
  exact Iff.rfl

/-- Every index (n, f, p) of the result is in a block that is written back: the block of the point 9 n + 8. -/
theorem cover2 (i : S16x64x196.Idx) : ∃ t : Fin cfg0.N, (cfg0.win 2).flush t = true ∧ i ∈ ((cfg0.win 2).blk t).view.set := by
  have hN : cfg0.N = 144 := N_0
  have hi0 : (i 0).val < 16 := (i 0).isLt
  have hi1 : (i 1).val < 64 := (i 1).isLt
  have hi2 : (i 2).val < 196 := (i 2).isLt
  have ht : 9 * (i 0).val + 8 < cfg0.N := by omega
  obtain ⟨e0, e1, e2⟩ := idx_w2 ⟨9 * (i 0).val + 8, ht⟩
  have e0' : win0_2.index ⟨9 * (i 0).val + 8, ht⟩ 0 = (9 * (i 0).val + 8) / 9 := e0
  refine ⟨⟨9 * (i 0).val + 8, ht⟩, (flush0_2 _).mpr (by show (9 * (i 0).val + 8) % 9 = 8; omega), ?_⟩
  rw [mem_blk2]
  intro a
  match a with
  | ⟨0, _⟩ =>
    show win0_2.index _ 0 * 1 ≤ (i 0).val ∧ (i 0).val < win0_2.index _ 0 * 1 + 1
    rw [e0']; omega
  | ⟨1, _⟩ =>
    show win0_2.index _ 1 * 64 ≤ (i 1).val ∧ (i 1).val < win0_2.index _ 1 * 64 + 64
    rw [e1]; omega
  | ⟨2, _⟩ =>
    show win0_2.index _ 2 * 196 ≤ (i 2).val ∧ (i 2).val < win0_2.index _ 2 * 196 + 196
    rw [e2]; omega

/-- The reshaped result after the run is the reshape of whatever the region leaves in the result array. -/
theorem tail_v24 (c : Dev nD) (G : Vec F S16x64x196 .f32) (hfinal : (dats m 0 c).arrAt 2 cfg0.N = G) :
    Pipeline.afterTail₀ cfgs (dats m) 0 (V0 m) [hostOps1] c main_v24 = shapeCast S16x64x14x14 G shapeCasts_S16x64x196_S16x64x14x14 := by
  unfold Pipeline.afterTail₀
  show StableHlo.after hostOps1 _ (Proc.devRef .tc main_v24) = _
  after_results
  have h2 : Pipeline.withArrays (cfgs 0).spec c (V0 m c) (fun w => (dats m 0 c).arrAt w (cfgs 0).N) (Proc.devRef .tc main_v23) = G :=
    (Pipeline.withArrays_arr spec0 launch0.win.arr_inj c _ _ 2).trans hfinal
  exact congrArg (fun X => shapeCast S16x64x14x14 X shapeCasts_S16x64x196_S16x64x14x14) h2

end Cert.KernelIdeal.KVal

end
-- ==== Proof.KVal.Final.lean ====
/-
  The kernel program's result at the extended reals. The output window is written back exactly at chunk 8
  of each image, and what is written is block (n, 0, 0) of one function of the staged arrays: the negated
  L1 distance. The sixteen blocks tile the result array, so it ends holding that function whole; the one
  host line after the region reshapes it to [16, 64, 14, 14]. Both argument arrays end as launched.
-/
import proofs.«108680_j24756191494450_1_alg».proof.Proof.KVal.Acc
import proofs.«108680_j24756191494450_1_alg».proof.Proof.KVal.Cover
import Idealize.ShloMosaic.Lib.Pipeline.Value

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

open Cert.L1

variable (m : (ℓ : Loc nD τ sig) → Buf (Elt Ideal) ℓ) (ρ : Dev nD → PrngReg)

/-- What a flushing point writes back is its block of the negated distance. -/
theorem flushed_eq (c : Dev nD) (t : Fin cfg0.N) (hf : (cfg0.win 2).flush t = true) :
    (dats m 0 c).flushed 2 t = ((cfg0.win 2).blk t).view.read (Elt Ideal) (negDist (Xk m c) (Wk m c)) := by
  have h8 : t.val % 9 = 8 := (flush0_2 t).mp hf
  obtain ⟨i0, i1, i2⟩ := idx_w2 t
  show (cfg0.win 2).cut (grid0.coords t) ((dats m 0 c).after 2 t) = _
  rw [after0_2]
  funext j
  rw [View.read_apply]
  refine out_val m c t h8 j _ ?_ ?_ ?_
  · show win0_2.index t 0 * 1 + 1 * (j 0).val = t.val / 9
    have hj : (j 0).val < 1 := (j 0).isLt
    rw [i0]; omega
  · show win0_2.index t 1 * 64 + 1 * (j 1).val = (j 1).val
    rw [i1]; omega
  · show win0_2.index t 2 * 196 + 1 * (j 2).val = (j 2).val
    rw [i2]; omega

/-- The result array after the run. -/
theorem final_v23 (c : Dev nD) : (dats m 0 c).arrAt 2 cfg0.N = negDist (Xk m c) (Wk m c) :=
  (dats m 0 c).arrAt_eq_of_cover 2 (negDist (Xk m c) (Wk m c)) (flushed_eq m c) cover2

/-- The run of the idealized kernel program, read: the reshaped result and the two arguments. -/
theorem run : θ_run defs (onTc (τ := τ) (main (F := Ideal))) ⟨m, fun _ => 0, ρ⟩ fun r => ∀ c : Dev nD,
      r.2.mem ((c.tc : Thread nD τ).loc main_v24)
        = shapeCast S16x64x14x14 (negDist (Xk m c) (Wk m c)) shapeCasts_S16x64x196_S16x64x14x14
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v24 (Pipeline.mem_restRefs_of main_v24 (by decide) (by decide))).trans (tail_v24 m c _ (final_v23 m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KVal

end
-- ==== Proof.KVal.HostIn.lean ====
/-
  What the kernel's two input windows stage, in the reference's own terms. The host lines before the
  region are, operation for operation, the reference's first lines: the activations padded by a zero border,
  nine shifted 14 × 14 slices stacked on a new axis and flattened to the patches [16, 576, 196]; the weights
  flattened to [64, 576]. So the patches array the region finds IS the reference's patches stage, and the
  kernel's weights, transposed once more to [576, 64], read at (d, f) what the reference's read at (f, d).
-/
import proofs.«108680_j24756191494450_1_alg».proof.Proof.FrKernelIdeal.Kit
import proofs.«108680_j24756191494450_1_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

open Idealize.ShloMosaic.StableHlo

variable {F : FTy → Type} [FloatOps F] (m : (ℓ : Loc nD τ sig) → Buf (Elt F) ℓ)

set_option maxHeartbeats 2000000 in
/-- The patches array as the region finds it is the reference's patches stage of the same activations. -/
theorem V_v20_eq (c : Dev nD) :
    (Fr.V m c main_v20 : Cert.KernelIdeal.S16x576x196.Idx → Elt F .f32)
      = Cert.ReferenceIdeal.Read.val_main_v20 (m ((c : Thread nD τ).loc main_arg0)) := by
  dsimp only [Fr.V, Fr.V0]
  simp only [hostOps0, hostOps0_1, hostOps0_2, List.flatten_cons, List.flatten_nil, List.append_nil, List.cons_append, List.nil_append]
  open Cert.ReferenceIdeal.Read in
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_call0_v0 val_main_c
  after_results_simp <;> rfl

set_option maxHeartbeats 2000000 in
/-- The weights array as the region finds it is the reference's flattened weights, transposed. -/
theorem V_v22_eq (c : Dev nD) :
    (Fr.V m c main_v22 : Cert.KernelIdeal.S576x64.Idx → Elt F .f32)
      = transpose S576x64 [1, 0] (Cert.ReferenceIdeal.Read.val_main_v21 (m ((c : Thread nD τ).loc main_arg1))) transposes_S64x576_S576x64_1_0 := by
  dsimp only [Fr.V, Fr.V0]
  simp only [hostOps0, hostOps0_1, hostOps0_2, List.flatten_cons, List.flatten_nil, List.append_nil, List.cons_append, List.nil_append]
  unfold Cert.ReferenceIdeal.Read.val_main_v21
  after_results_simp <;> rfl

/-- So at (d, f) it reads the reference's flattened weights at (f, d). -/
theorem V_v22_apply (c : Dev nD) (d : Fin 576) (f : Fin 64) :
    (Fr.V m c main_v22 : Cert.KernelIdeal.S576x64.Idx → Elt F .f32) (ix2 d f)
      = Cert.ReferenceIdeal.Read.val_main_v21 (m ((c : Thread nD τ).loc main_arg1)) (ix2 f d) := by
  rw [V_v22_eq m c]
  exact transpose_ix2_apply _ _ d f

end Cert.KernelIdeal.KVal

end
-- ==== Proof.lean ====
/-
  The certificate of the L1-distance ("adder") convolution kernel against its jnp reference.

  Both programs unfold the padded activations into patches X : [16, 576, 196] by the same host lines, and
  at output position (n, f, p) both add the 576 extended reals |W[f, d] − X[n, d, p]| and negate the
  total. The reference reduces in one host line over a broadcast difference. The kernel runs a 16 × 9
  grid over the transposed weights: at chunk j of image n it adds 64 terms to a VMEM accumulator (reset
  to zero at chunk 0), and at chunk 8 stores zero minus the accumulator. Addition on the extended reals
  is commutative and associative, so the chunked total is the whole sum, and 0 − s = −s: the two results
  are one function of the arguments, with no use of finiteness.

  The three frames: the kernel program's at the word level and at the extended reals are one hand proof
  over any float family (the accumulator's contents tracked from point to point, the output window idle
  except at chunk 8), the reference's is its generated run with the result dropped. The ideal pass rewrote
  nothing, so the preservation conjunct is trivial.
-/
import proofs.«108680_j24756191494450_1_alg».proof.Defs
import proofs.«108680_j24756191494450_1_alg».proof.Proof.Gen.Kernel
import proofs.«108680_j24756191494450_1_alg».proof.Proof.Gen.KernelIdeal
import proofs.«108680_j24756191494450_1_alg».proof.Proof.Gen.ReferenceIdeal
import proofs.«108680_j24756191494450_1_alg».proof.Proof.Gen.Pre_finite_inputs
import proofs.«108680_j24756191494450_1_alg».proof.Proof.Gen.ReferenceIdeal.Run
import proofs.«108680_j24756191494450_1_alg».proof.Proof.Gen.ReferenceIdeal.Read
import proofs.«108680_j24756191494450_1_alg».proof.Proof.FrKernel.Frame
import proofs.«108680_j24756191494450_1_alg».proof.Proof.FrKernelIdeal.Frame
import proofs.«108680_j24756191494450_1_alg».proof.Proof.KVal.Final
import proofs.«108680_j24756191494450_1_alg».proof.Proof.KVal.HostIn
import proofs.«108680_j24756191494450_1_alg».proof.Proof.RefAt
import Idealize.ShloMosaic.Adequacy
import Idealize.ShloMosaic.Init

noncomputable section

namespace Cert.Proof

open Idealize.ShloMosaic Idealize.ShloMosaic.TcCoe Idealize.ShloMosaic.ValueIdx Idealize.SL.Sem
open Cert.L1

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's negated distance over the arrays it stages is the reference's negated sum over its own stages,
    when the patches are one array and the kernel's weights are the reference's transposed. -/
theorem negDist_eq_ref (x0 : Vec Ideal Cert.ReferenceIdeal.S16x64x14x14 .f32) (x1 : Vec Ideal Cert.ReferenceIdeal.S64x64x3x3 .f32)
    (X : Vec Ideal Cert.KernelIdeal.S16x576x196 .f32) (Wt : Vec Ideal Cert.KernelIdeal.S576x64 .f32)
    (hX : X = Cert.ReferenceIdeal.Read.val_main_v20 x0)
    (hW : ∀ (d : Fin 576) (f : Fin 64), Wt (ix2 d f) = Cert.ReferenceIdeal.Read.val_main_v21 x1 (ix2 f d)) :
    negDist X Wt = Cert.ReferenceIdeal.Read.val_main_v29 x0 x1 := by
  funext j
  obtain ⟨n, f, p, rfl⟩ : ∃ (n : Fin 16) (f : Fin 64) (p : Fin 196), j = ix3 n f p := ⟨j 0, j 1, j 2, eq_ix3 j⟩
  rw [Cert.ReferenceIdeal.RefValue.ref29_apply]
  subst hX
  unfold negDist
  rw [sub_eq_add_neg, zero_add]
  exact congrArg Neg.neg (Finset.sum_congr rfl fun d _ => by rw [hW d f])

/-- Run from memories agreeing on the arguments, both idealized programs end with the reshaped negated distance. -/
theorem algebraic : Cert.algebraic_KernelIdeal_ReferenceIdeal := by
  intro m ρ m' ρ' _ hagree
  refine ⟨fun c => shapeCast Cert.KernelIdeal.S16x64x14x14 (negDist (Cert.KernelIdeal.KVal.Xk m c) (Cert.KernelIdeal.KVal.Wk m c))
      Cert.KernelIdeal.Gen.shapeCasts_S16x64x196_S16x64x14x14, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2, Cert.ReferenceIdeal.RefValue.v30_eq]
  exact congrArg (fun v => shapeCast Cert.KernelIdeal.S16x64x14x14 v Cert.KernelIdeal.Gen.shapeCasts_S16x64x196_S16x64x14x14)
    (negDist_eq_ref _ _ _ _ (Cert.KernelIdeal.KVal.V_v20_eq m c) (Cert.KernelIdeal.KVal.V_v22_apply m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
